-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4 : Shape := ⟨2, ![524288, 4]⟩
abbrev S4x64 : Shape := ⟨2, ![4, 64]⟩
abbrev S64 : Shape := ⟨1, ![64]⟩
abbrev S64x1 : Shape := ⟨2, ![64, 1]⟩
abbrev S1 : Shape := ⟨1, ![1]⟩
abbrev S4x256 : Shape := ⟨2, ![4, 256]⟩
abbrev S256 : Shape := ⟨1, ![256]⟩
abbrev S4x256x256 : Shape := ⟨3, ![4, 256, 256]⟩
abbrev S256x1 : Shape := ⟨2, ![256, 1]⟩
abbrev S_ : Shape := ⟨0, ![]⟩

class Facts : Prop where
  bcast_S_S524288x4 : S_.BroadcastsInDim S524288x4 (![] : Fin 0 → Fin S524288x4.rank)
  reducesTo_S524288x4_S_d0_1 : S524288x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S256x1 : S_.BroadcastsInDim S256x1 (![] : Fin 0 → Fin S256x1.rank)
  reducesTo_S256x1_S_d0_1 : S256x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S4x256x256 .f32) (main_arg8 : FVec F S4x256 .f32) (main_arg9 : FVec F S256x1 .f32) (main_arg10 : FVec F S1 .f32) (main_v33 : IVec S_ 1) : IVec S_ 1 :=
  let main_v34 : FVec F S4x256x256 .f32 := Host.absf main_arg7
  let main_cst_12 : FVec F S_ .f32 := constant S_ .f32 0x7F800000#32
  let main_v35 : FVec F S4x256x256 .f32 := broadcastInDim S4x256x256 ![] bcast_S_S4x256x256 main_cst_12
  let main_v36 : IVec S4x256x256 1 := cmpf .olt main_v34 main_v35
  let main_c_13 : IVec S_ 1 := constantI S_ 1 1#1
  let main_v37 : IVec S_ 1 := (fun x v => Host.reduce IntOp.andi x v reducesTo_S4x256x256_S_d0_1_2 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S256x1 .f32 := Host.absf main_arg9
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1 .f32) (main_arg5 : FVec F S4x256 .f32) (main_arg6 : FVec F S256 .f32) (main_arg7 : FVec F S4x256x256 .f32) (main_arg8 : FVec F S4x256 .f32) (main_arg9 : FVec F S256x1 .f32) (main_arg10 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x4 .f32) (main_arg1 : FVec F S4x64 .f32) (main_arg2 : FVec F S64 .f32) (main_arg3 : FVec F S64x1 .f32) (main_arg4 : FVec F S1 .f32) (main_arg5 : FVec F S4x256 .f32) (main_arg6 : FVec F S256 .f32) (main_arg7 : FVec F S4x256x256 .f32) (main_arg8 : FVec F S4x256 .f32) (main_arg9 : FVec F S256x1 .f32) (main_arg10 : FVec F S1 .f32) : IVec S_ 1 :=
  let main_v0 : FVec F S524288x4 .f32 := Host.absf main_arg0
  let main_cst : FVec F S_ .f32 := constant S_ .f32 0x7F800000#32
  let main_v1 : FVec F S524288x4 .f32 := broadcastInDim S524288x4 ![] bcast_S_S524288x4 main_cst
  let main_v2 : IVec S524288x4 1 := cmpf .olt main_v0 main_v1
  let main_c : IVec S_ 1 := constantI S_ 1 1#1
  let main_v3 : IVec S_ 1 := (fun x v => Host.reduce IntOp.andi x v reducesTo_S524288x4_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_arg8 main_arg9 main_arg10 main_v13 main_v16
-- ==== Kernel.lean ====
abbrev S524288x4 : Shape := ⟨2, ![524288, 4]⟩
abbrev S4x64 : Shape := ⟨2, ![4, 64]⟩
abbrev S64 : Shape := ⟨1, ![64]⟩
abbrev S64x1 : Shape := ⟨2, ![64, 1]⟩
abbrev S1 : Shape := ⟨1, ![1]⟩
abbrev S4x256 : Shape := ⟨2, ![4, 256]⟩
abbrev S256 : Shape := ⟨1, ![256]⟩
abbrev S4x256x256 : Shape := ⟨3, ![4, 256, 256]⟩
abbrev S256x1 : Shape := ⟨2, ![256, 1]⟩
abbrev S524288x1 : Shape := ⟨2, ![524288, 1]⟩
abbrev S2048x4 : Shape := ⟨2, ![2048, 4]⟩
abbrev S2048x1 : Shape := ⟨2, ![2048, 1]⟩
abbrev S2048x64 : Shape := ⟨2, ![2048, 64]⟩
abbrev S1x64 : Shape := ⟨2, ![1, 64]⟩
abbrev S1x1 : Shape := ⟨2, ![1, 1]⟩
abbrev S2048x256 : Shape := ⟨2, ![2048, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 12
  | .vmem => 14
  | .smem => 0
  | _ => 0

abbrev bufTy : (tb : Table) → Fin (tcTables nBuf tb) → BufTy
  | .hbm, ⟨0, _⟩ => ⟨S524288x4, .f32⟩
  | .hbm, ⟨1, _⟩ => ⟨S4x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S4x256, .f32⟩
  | .hbm, ⟨6, _⟩ => ⟨S256, .f32⟩
  | .hbm, ⟨7, _⟩ => ⟨S4x256x256, .f32⟩
  | .hbm, ⟨8, _⟩ => ⟨S4x256, .f32⟩
  | .hbm, ⟨9, _⟩ => ⟨S256x1, .f32⟩
  | .hbm, ⟨10, _⟩ => ⟨S1, .f32⟩
  | .hbm, ⟨11, _⟩ => ⟨S524288x1, .f32⟩
  | .local _ .vmem, ⟨0, _⟩ => ⟨S2048x4, .f32⟩
  | .local _ .vmem, ⟨1, _⟩ => ⟨S2048x4, .f32⟩
  | .local _ .vmem, ⟨2, _⟩ => ⟨S4x64, .f32⟩
  | .local _ .vmem, ⟨3, _⟩ => ⟨S64, .f32⟩
  | .local _ .vmem, ⟨4, _⟩ => ⟨S64x1, .f32⟩
  | .local _ .vmem, ⟨5, _⟩ => ⟨S1, .f32⟩
  | .local _ .vmem, ⟨6, _⟩ => ⟨S4x256, .f32⟩
  | .local _ .vmem, ⟨7, _⟩ => ⟨S256, .f32⟩
  | .local _ .vmem, ⟨8, _⟩ => ⟨S4x256x256, .f32⟩
  | .local _ .vmem, ⟨9, _⟩ => ⟨S4x256, .f32⟩
  | .local _ .vmem, ⟨10, _⟩ => ⟨S256x1, .f32⟩
  | .local _ .vmem, ⟨11, _⟩ => ⟨S1, .f32⟩
  | .local _ .vmem, ⟨12, _⟩ => ⟨S2048x1, .f32⟩
  | .local _ .vmem, ⟨13, _⟩ => ⟨S2048x1, .f32⟩
  | _, _ => ⟨S524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S2048x4_S2048x4_0_0 : ∀ a, (![0, 0] : Fin 2 → Nat) a + S2048x4.size a ≤ S2048x4.size a
  h_S2048x4 : 0 < S2048x4.numel
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S4x256_S4x256_0_0 : ∀ a, (![0, 0] : Fin 2 → Nat) a + S4x256.size a ≤ S4x256.size a
  h_S4x256 : 0 < S4x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  broadcasts_S2048x1_S2048x256 : S2048x1.Broadcasts S2048x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  h_S1x256 : 0 < S1x256.numel
  shapeCasts_S1x256_S256 : S1x256.ShapeCasts S256
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  inb_S256x1_S256x1_0_0 : ∀ a, (![0, 0] : Fin 2 → Nat) a + S256x1.size a ≤ S256x1.size a
  h_S256x1 : 0 < S256x1.numel
  inb_S2048x1_S2048x1_0_0 : ∀ a, (![0, 0] : Fin 2 → Nat) a + S2048x1.size a ≤ S2048x1.size a
  h_S2048x1 : 0 < S2048x1.numel
  dot_S2048x4_S4x64_S2048x64_1_0_0_1_n_n_wf : DotDims.WF S2048x4 S4x64 S2048x64 [1] [0] [0] [1] [] []
  dot_S2048x64_S64x1_S2048x1_1_0_0_1_n_n_wf : DotDims.WF S2048x64 S64x1 S2048x1 [1] [0] [0] [1] [] []
  dot_S2048x4_S4x256_S2048x256_1_0_0_1_n_n_wf : DotDims.WF S2048x4 S4x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S524288x4.size a
  hwx0_0 : ∀ i : grid0.Coords, EltTy.bits .f32 = 32 ∨ (Rect.block (s := S524288x4) S2048x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x256x256.size a ≤ S4x256x256.size a
  hwx0_7 : ∀ i : grid0.Coords, EltTy.bits .f32 = 32 ∨ (Rect.block (s := S4x256x256) S4x256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S524288x1.size a
  hwx0_11 : ∀ i : grid0.Coords, EltTy.bits .f32 = 32 ∨ (Rect.block (s := S524288x1) S2048x1.size (cc0_transform_11 i) (hinb0_11 i)).WholeWords (EltTy.packing .f32)

variable [Facts₀]

def dot_S2048x4_S4x64_S2048x64_1_0_0_1_n_n : DotDims S2048x4 S4x64 S2048x64 where
  lhsContracting := [1]
  rhsContracting := [0]
  lhsNonContracting := [0]
  rhsNonContracting := [1]
  lhsBatch := []
  rhsBatch := []
  wf := dot_S2048x4_S4x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf
def dot_S2048x4_S4x256_S2048x256_1_0_0_1_n_n : DotDims S2048x4 S4x256 S2048x256 where
  lhsContracting := [1]
  rhsContracting := [0]
  lhsNonContracting := [0]
  rhsNonContracting := [1]
  lhsBatch := []
  rhsBatch := []
  wf := dot_S2048x4_S4x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x4 : Shape := ⟨2, ![524288, 4]⟩
abbrev S4x64 : Shape := ⟨2, ![4, 64]⟩
abbrev S64 : Shape := ⟨1, ![64]⟩
abbrev S64x1 : Shape := ⟨2, ![64, 1]⟩
abbrev S1 : Shape := ⟨1, ![1]⟩
abbrev S4x256 : Shape := ⟨2, ![4, 256]⟩
abbrev S256 : Shape := ⟨1, ![256]⟩
abbrev S4x256x256 : Shape := ⟨3, ![4, 256, 256]⟩
abbrev S256x1 : Shape := ⟨2, ![256, 1]⟩
abbrev S524288x64 : Shape := ⟨2, ![524288, 64]⟩
abbrev S1x64 : Shape := ⟨2, ![1, 64]⟩
abbrev S_ : Shape := ⟨0, ![]⟩
abbrev S524288x1 : Shape := ⟨2, ![524288, 1]⟩
abbrev S1x1 : Shape := ⟨2, ![1, 1]⟩
abbrev S524288x256 : Shape := ⟨2, ![524288, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 91
  | .vmem => 0
  | .smem => 0
  | _ => 0

abbrev bufTy : (tb : Table) → Fin (tcTables nBuf tb) → BufTy
  | .hbm, ⟨0, _⟩ => ⟨S524288x4, .f32⟩
  | .hbm, ⟨1, _⟩ => ⟨S4x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S4x256, .f32⟩
  | .hbm, ⟨6, _⟩ => ⟨S256, .f32⟩
  | .hbm, ⟨7, _⟩ => ⟨S4x256x256, .f32⟩
  | .hbm, ⟨8, _⟩ => ⟨S4x256, .f32⟩
  | .hbm, ⟨9, _⟩ => ⟨S256x1, .f32⟩
  | .hbm, ⟨10, _⟩ => ⟨S1, .f32⟩
  | .hbm, ⟨11, _⟩ => ⟨S524288x64, .f32⟩
  | .hbm, ⟨12, _⟩ => ⟨S1x64, .f32⟩
  | .hbm, ⟨13, _⟩ => ⟨S524288x64, .f32⟩
  | .hbm, ⟨14, _⟩ => ⟨S524288x64, .f32⟩
  | .hbm, ⟨15, _⟩ => ⟨S_, .f32⟩
  | .hbm, ⟨16, _⟩ => ⟨S524288x64, .f32⟩
  | .hbm, ⟨17, _⟩ => ⟨S524288x64, .f32⟩
  | .hbm, ⟨18, _⟩ => ⟨S524288x1, .f32⟩
  | .hbm, ⟨19, _⟩ => ⟨S1x1, .f32⟩
  | .hbm, ⟨20, _⟩ => ⟨S524288x1, .f32⟩
  | .hbm, ⟨21, _⟩ => ⟨S524288x1, .f32⟩
  | .hbm, ⟨22, _⟩ => ⟨S524288x1, .f32⟩
  | .hbm, ⟨23, _⟩ => ⟨S524288x1, .f32⟩
  | .hbm, ⟨24, _⟩ => ⟨S_, .f32⟩
  | .hbm, ⟨25, _⟩ => ⟨S524288x1, .f32⟩
  | .hbm, ⟨26, _⟩ => ⟨S524288x1, .f32⟩
  | .hbm, ⟨27, _⟩ => ⟨S_, .f32⟩
  | .hbm, ⟨28, _⟩ => ⟨S524288x1, .f32⟩
  | .hbm, ⟨29, _⟩ => ⟨S524288x1, .f32⟩
  | .hbm, ⟨30, _⟩ => ⟨S_, .f32⟩
  | .hbm, ⟨31, _⟩ => ⟨S524288x1, .f32⟩
  | .hbm, ⟨32, _⟩ => ⟨S524288x1, .f32⟩
  | .hbm, ⟨33, _⟩ => ⟨S_, .f32⟩
  | .hbm, ⟨34, _⟩ => ⟨S524288x1, .f32⟩
  | .hbm, ⟨35, _⟩ => ⟨S524288x1, .f32⟩
  | .hbm, ⟨36, _⟩ => ⟨S524288x256, .f32⟩
  | .hbm, ⟨37, _⟩ => ⟨S1x256, .f32⟩
  | .hbm, ⟨38, _⟩ => ⟨S524288x256, .f32⟩
  | .hbm, ⟨39, _⟩ => ⟨S524288x256, .f32⟩
  | .hbm, ⟨40, _⟩ => ⟨S524288x256, .f32⟩
  | .hbm, ⟨41, _⟩ => ⟨S524288x256, .f32⟩
  | .hbm, ⟨42, _⟩ => ⟨S524288x256, .f32⟩
  | .hbm, ⟨43, _⟩ => ⟨S1x256x256, .f32⟩
  | .hbm, ⟨44, _⟩ => ⟨S256x256, .f32⟩
  | .hbm, ⟨45, _⟩ => ⟨S524288x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S524288x256, .f32⟩
  | .hbm, ⟨50, _⟩ => ⟨S524288x256, .f32⟩
  | .hbm, ⟨51, _⟩ => ⟨S524288x256, .f32⟩
  | .hbm, ⟨52, _⟩ => ⟨S524288x256, .f32⟩
  | .hbm, ⟨53, _⟩ => ⟨S524288x256, .f32⟩
  | .hbm, ⟨54, _⟩ => ⟨S1x256x256, .f32⟩
  | .hbm, ⟨55, _⟩ => ⟨S256x256, .f32⟩
  | .hbm, ⟨56, _⟩ => ⟨S524288x256, .f32⟩
  | .hbm, ⟨57, _⟩ => ⟨S1x256, .f32⟩
  | .hbm, ⟨58, _⟩ => ⟨S256, .f32⟩
  | .hbm, ⟨59, _⟩ => ⟨S1x256, .f32⟩
  | .hbm, ⟨60, _⟩ => ⟨S524288x256, .f32⟩
  | .hbm, ⟨61, _⟩ => ⟨S524288x256, .f32⟩
  | .hbm, ⟨62, _⟩ => ⟨S524288x256, .f32⟩
  | .hbm, ⟨63, _⟩ => ⟨S524288x256, .f32⟩
  | .hbm, ⟨64, _⟩ => ⟨S524288x256, .f32⟩
  | .hbm, ⟨65, _⟩ => ⟨S1x256x256, .f32⟩
  | .hbm, ⟨66, _⟩ => ⟨S256x256, .f32⟩
  | .hbm, ⟨67, _⟩ => ⟨S524288x256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S524288x256, .f32⟩
  | .hbm, ⟨72, _⟩ => ⟨S524288x256, .f32⟩
  | .hbm, ⟨73, _⟩ => ⟨S524288x256, .f32⟩
  | .hbm, ⟨74, _⟩ => ⟨S524288x256, .f32⟩
  | .hbm, ⟨75, _⟩ => ⟨S524288x256, .f32⟩
  | .hbm, ⟨76, _⟩ => ⟨S1x256x256, .f32⟩
  | .hbm, ⟨77, _⟩ => ⟨S256x256, .f32⟩
  | .hbm, ⟨78, _⟩ => ⟨S524288x256, .f32⟩
  | .hbm, ⟨79, _⟩ => ⟨S1x256, .f32⟩
  | .hbm, ⟨80, _⟩ => ⟨S256, .f32⟩
  | .hbm, ⟨81, _⟩ => ⟨S1x256, .f32⟩
  | .hbm, ⟨82, _⟩ => ⟨S524288x256, .f32⟩
  | .hbm, ⟨83, _⟩ => ⟨S524288x256, .f32⟩
  | .hbm, ⟨84, _⟩ => ⟨S524288x256, .f32⟩
  | .hbm, ⟨85, _⟩ => ⟨S524288x256, .f32⟩
  | .hbm, ⟨86, _⟩ => ⟨S524288x256, .f32⟩
  | .hbm, ⟨87, _⟩ => ⟨S524288x1, .f32⟩
  | .hbm, ⟨88, _⟩ => ⟨S1x1, .f32⟩
  | .hbm, ⟨89, _⟩ => ⟨S524288x1, .f32⟩
  | .hbm, ⟨90, _⟩ => ⟨S524288x1, .f32⟩
  | _, _ => ⟨S524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S524288x1_S524288x256_0_1 : S524288x1.BroadcastsInDim S524288x256 (![0, 1] : Fin 2 → Fin S524288x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  dot_S524288x4_S4x64_S524288x64_1_0_0_1_n_n_wf : DotDims.WF S524288x4 S4x64 S524288x64 [1] [0] [0] [1] [] []
  dot_S524288x64_S64x1_S524288x1_1_0_0_1_n_n_wf : DotDims.WF S524288x64 S64x1 S524288x1 [1] [0] [0] [1] [] []
  dot_S524288x4_S4x256_S524288x256_1_0_0_1_n_n_wf : DotDims.WF S524288x4 S4x256 S524288x256 [1] [0] [0] [1] [] []
  dot_S524288x256_S256x256_S524288x256_1_0_0_1_n_n_wf : DotDims.WF S524288x256 S256x256 S524288x256 [1] [0] [0] [1] [] []
  dot_S524288x256_S256x1_S524288x1_1_0_0_1_n_n_wf : DotDims.WF S524288x256 S256x1 S524288x1 [1] [0] [0] [1] [] []

variable [Facts₀]

def dot_S524288x4_S4x64_S524288x64_1_0_0_1_n_n : DotDims S524288x4 S4x64 S524288x64 where
  lhsContracting := [1]
  rhsContracting := [0]
  lhsNonContracting := [0]
  rhsNonContracting := [1]
  lhsBatch := []
  rhsBatch := []
  wf := dot_S524288x4_S4x64_S524288x64_1_0_0_1_n_n_wf
def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf
def dot_S524288x4_S4x256_S524288x256_1_0_0_1_n_n : DotDims S524288x4 S4x256 S524288x256 where
  lhsContracting := [1]
  rhsContracting := [0]
  lhsNonContracting := [0]
  rhsNonContracting := [1]
  lhsBatch := []
  rhsBatch := []
  wf := dot_S524288x4_S4x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.Siren.lean ====
/- A sinusoidal network whose frequency is predicted per row, written once for any number of rows R.
   For a row c of four coordinates:
     h      = max(c·ow1 + ob1, 0)                      (64 entries)
     omega  = 10 + 90 · logistic(h·ow2 + ob2)          (one number for the row)
     x0     = sin(omega · (c·w0 + b0))                 (256 entries)
     x(n+1) = sin(omega · (x(n)·wh[n] + bh[n]))        for n = 0, 1, 2, 3
     out    = x4·wf + bf                               (one number)
   Every layer is a function of the row alone, so the network of a block of rows is the block of the network:
   that is what lets a computation tiled over row blocks be compared with one over all rows. The second half
   reads two spellings of each layer, a kernel's and a host program's, as the layer itself on the extended reals. -/
import Idealize.ShloMosaic.Lib.ValueIdx
import Idealize.ShloMosaic.Lib.Pipeline.Value
import Idealize.ShloMosaic.Lib.IdealHost
import Idealize.ShloMosaic.Lib.KernelVsHost
import Idealize.ShloMosaic.PureOps.Ideal.Laws
import proofs.«145417_j82849919139907_1_alg».proof.Proof.LibDotRead
import proofs.«145417_j82849919139907_1_alg».proof.Proof.LibBiasRow
import proofs.«145417_j82849919139907_1_alg».proof.Proof.LibKeepdims

noncomputable section

open scoped BigOperators

namespace Cert.Siren

open Idealize.ShloMosaic Idealize.ShloMosaic.ValueIdx

/-! ## The layers, each entry a function of its row -/

/-- A dense layer: entry (r, j) is the sum over c of x(r, c) · W(c, j), plus b(j). -/
def dense {R K N : ℕ} (x : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ c : Fin K, x (ix2 (i 0) c) * W (ix2 c (i 1))) + b (ix1 (i 1))

/-- The positive part, entry by entry. -/
def relu {S : Shape} (z : S.Idx → EReal) : S.Idx → EReal := fun i => max (z i) 0

/-- The row's frequency from its raw score: 10 + 90 · logistic(raw). -/
def freq {R : ℕ} (raw : (⟨2, ![R, 1]⟩ : Shape).Idx → EReal) : (⟨2, ![R, 1]⟩ : Shape).Idx → EReal :=
  fun i => Ideal.ofBits .f32 0x41200000#32 + Ideal.ofBits .f32 0x42B40000#32 * Ideal.logistic (raw i)

/-- A sine layer: entry (r, j) is sin(omega(r) · z(r, j)). -/
def sine {R N : ℕ} (om : (⟨2, ![R, 1]⟩ : Shape).Idx → EReal) (z : (⟨2, ![R, N]⟩ : Shape).Idx → EReal) :
    (⟨2, ![R, N]⟩ : Shape).Idx → EReal :=
  fun i => Ideal.sin (om (ix2 (i 0) (0 : Fin 1)) * z i)

/-- Matrix n of a stack of four 256 x 256 matrices. -/
def matAt (wh : (⟨3, ![4, 256, 256]⟩ : Shape).Idx → EReal) (n : ℕ) (hn : n < 4) :
    (⟨2, ![256, 256]⟩ : Shape).Idx → EReal :=
  fun j => wh (ix3 (⟨n, hn⟩ : Fin 4) (j 0) (j 1))

/-- Row n of a 4 x 256 matrix, as a vector. -/
def rowAt (bh : (⟨2, ![4, 256]⟩ : Shape).Idx → EReal) (n : ℕ) (hn : n < 4) : (⟨1, ![256]⟩ : Shape).Idx → EReal :=
  fun j => bh (ix2 (⟨n, hn⟩ : Fin 4) (j 0))

/-- The frequency predictor: two dense layers with a positive part between, then `freq`. -/
def omegaOf {R : ℕ} (coords : (⟨2, ![R, 4]⟩ : Shape).Idx → EReal)
    (ow1 : (⟨2, ![4, 64]⟩ : Shape).Idx → EReal) (ob1 : (⟨1, ![64]⟩ : Shape).Idx → EReal)
    (ow2 : (⟨2, ![64, 1]⟩ : Shape).Idx → EReal) (ob2 : (⟨1, ![1]⟩ : Shape).Idx → EReal) :
    (⟨2, ![R, 1]⟩ : Shape).Idx → EReal :=
  freq (dense (relu (dense coords ow1 ob1)) ow2 ob2)

/-- Hidden layer n: a dense layer with matrix n and bias row n, then the sine at the row's frequency. -/
def hidden {R : ℕ} (om : (⟨2, ![R, 1]⟩ : Shape).Idx → EReal) (x : (⟨2, ![R, 256]⟩ : Shape).Idx → EReal)
    (wh : (⟨3, ![4, 256, 256]⟩ : Shape).Idx → EReal) (bh : (⟨2, ![4, 256]⟩ : Shape).Idx → EReal)
    (n : ℕ) (hn : n < 4) : (⟨2, ![R, 256]⟩ : Shape).Idx → EReal :=
  sine om (dense x (matAt wh n hn) (rowAt bh n hn))

/-- The whole network on R rows. -/
def net {R : ℕ} (coords : (⟨2, ![R, 4]⟩ : Shape).Idx → EReal)
    (ow1 : (⟨2, ![4, 64]⟩ : Shape).Idx → EReal) (ob1 : (⟨1, ![64]⟩ : Shape).Idx → EReal)
    (ow2 : (⟨2, ![64, 1]⟩ : Shape).Idx → EReal) (ob2 : (⟨1, ![1]⟩ : Shape).Idx → EReal)
    (w0 : (⟨2, ![4, 256]⟩ : Shape).Idx → EReal) (b0 : (⟨1, ![256]⟩ : Shape).Idx → EReal)
    (wh : (⟨3, ![4, 256, 256]⟩ : Shape).Idx → EReal) (bh : (⟨2, ![4, 256]⟩ : Shape).Idx → EReal)
    (wf : (⟨2, ![256, 1]⟩ : Shape).Idx → EReal) (bf : (⟨1, ![1]⟩ : Shape).Idx → EReal) :
    (⟨2, ![R, 1]⟩ : Shape).Idx → EReal :=
  dense
    (hidden (omegaOf coords ow1 ob1 ow2 ob2)
      (hidden (omegaOf coords ow1 ob1 ow2 ob2)
        (hidden (omegaOf coords ow1 ob1 ow2 ob2)
          (hidden (omegaOf coords ow1 ob1 ow2 ob2)
            (sine (omegaOf coords ow1 ob1 ow2 ob2) (dense coords w0 b0))
            wh bh 0 (by decide))
          wh bh 1 (by decide))
        wh bh 2 (by decide))
      wh bh 3 (by decide))
    wf bf

/-! ## Every layer is local to the row -/

/-- Row p of x and row r of x' hold the same entries. -/
def SameRow {R R' N : ℕ} (p : Fin R) (r : Fin R') (x : (⟨2, ![R, N]⟩ : Shape).Idx → EReal)
    (x' : (⟨2, ![R', N]⟩ : Shape).Idx → EReal) : Prop :=
  ∀ j : Fin N, x (ix2 p j) = x' (ix2 r j)

theorem SameRow.dense {R R' K N : ℕ} {p : Fin R} {r : Fin R'} {x : (⟨2, ![R, K]⟩ : Shape).Idx → EReal}
    {x' : (⟨2, ![R', K]⟩ : Shape).Idx → EReal} (h : SameRow p r x x') (W : (⟨2, ![K, N]⟩ : Shape).Idx → EReal)
    (b : (⟨1, ![N]⟩ : Shape).Idx → EReal) : SameRow p r (Siren.dense x W b) (Siren.dense x' W b) := fun j =>
  congrArg (· + b (ix1 j)) (Finset.sum_congr rfl fun c _ => congrArg (· * W (ix2 c j)) (h c))

theorem SameRow.relu {R R' N : ℕ} {p : Fin R} {r : Fin R'} {x : (⟨2, ![R, N]⟩ : Shape).Idx → EReal}
    {x' : (⟨2, ![R', N]⟩ : Shape).Idx → EReal} (h : SameRow p r x x') : SameRow p r (Siren.relu x) (Siren.relu x') :=
  fun j => congrArg (max · 0) (h j)

theorem SameRow.freq {R R' : ℕ} {p : Fin R} {r : Fin R'} {x : (⟨2, ![R, 1]⟩ : Shape).Idx → EReal}
    {x' : (⟨2, ![R', 1]⟩ : Shape).Idx → EReal} (h : SameRow p r x x') : SameRow p r (Siren.freq x) (Siren.freq x') :=
  fun j => congrArg (fun y => Ideal.ofBits .f32 0x41200000#32 + Ideal.ofBits .f32 0x42B40000#32 * Ideal.logistic y) (h j)

theorem SameRow.sine {R R' N : ℕ} {p : Fin R} {r : Fin R'} {om : (⟨2, ![R, 1]⟩ : Shape).Idx → EReal}
    {om' : (⟨2, ![R', 1]⟩ : Shape).Idx → EReal} {z : (⟨2, ![R, N]⟩ : Shape).Idx → EReal}
    {z' : (⟨2, ![R', N]⟩ : Shape).Idx → EReal} (hom : SameRow p r om om') (h : SameRow p r z z') :
    SameRow p r (Siren.sine om z) (Siren.sine om' z') := fun j => by
  show Ideal.sin (om (ix2 p (0 : Fin 1)) * z (ix2 p j)) = Ideal.sin (om' (ix2 r (0 : Fin 1)) * z' (ix2 r j))
  rw [hom 0, h j]

/-- The network's output in a row depends on that row of the coordinates only. -/
theorem net_rows {R R' : ℕ} {p : Fin R} {r : Fin R'} {blk : (⟨2, ![R, 4]⟩ : Shape).Idx → EReal}
    {coords : (⟨2, ![R', 4]⟩ : Shape).Idx → EReal} (h : SameRow p r blk coords)
    (ow1 : (⟨2, ![4, 64]⟩ : Shape).Idx → EReal) (ob1 : (⟨1, ![64]⟩ : Shape).Idx → EReal)
    (ow2 : (⟨2, ![64, 1]⟩ : Shape).Idx → EReal) (ob2 : (⟨1, ![1]⟩ : Shape).Idx → EReal)
    (w0 : (⟨2, ![4, 256]⟩ : Shape).Idx → EReal) (b0 : (⟨1, ![256]⟩ : Shape).Idx → EReal)
    (wh : (⟨3, ![4, 256, 256]⟩ : Shape).Idx → EReal) (bh : (⟨2, ![4, 256]⟩ : Shape).Idx → EReal)
    (wf : (⟨2, ![256, 1]⟩ : Shape).Idx → EReal) (bf : (⟨1, ![1]⟩ : Shape).Idx → EReal) :
    SameRow p r (net blk ow1 ob1 ow2 ob2 w0 b0 wh bh wf bf) (net coords ow1 ob1 ow2 ob2 w0 b0 wh bh wf bf) := by
  have hom : SameRow p r (omegaOf blk ow1 ob1 ow2 ob2) (omegaOf coords ow1 ob1 ow2 ob2) :=
    ((h.dense ow1 ob1).relu.dense ow2 ob2).freq
  have h0 := hom.sine (h.dense w0 b0)
  have h1 : SameRow p r (hidden _ _ wh bh 0 (by decide)) (hidden _ _ wh bh 0 (by decide)) := hom.sine (h0.dense _ _)
  have h2 : SameRow p r (hidden _ _ wh bh 1 (by decide)) (hidden _ _ wh bh 1 (by decide)) := hom.sine (h1.dense _ _)
  have h3 : SameRow p r (hidden _ _ wh bh 2 (by decide)) (hidden _ _ wh bh 2 (by decide)) := hom.sine (h2.dense _ _)
  have h4 : SameRow p r (hidden _ _ wh bh 3 (by decide)) (hidden _ _ wh bh 3 (by decide)) := hom.sine (h3.dense _ _)
  exact h4.dense wf bf

/-! ## Small layout reads -/

variable {α : Type}

/-- A [1, 256, 256] slab cast to a 256 x 256 matrix reads, at (a, b), the slab at (0, a, b). -/
theorem cast_mat (v : (⟨3, ![1, 256, 256]⟩ : Shape).Idx → α)
    (hc : (⟨3, ![1, 256, 256]⟩ : Shape).ShapeCasts ⟨2, ![256, 256]⟩) :
    shapeCast ⟨2, ![256, 256]⟩ v hc = fun j => v (ix3 (0 : Fin 1) (j 0) (j 1)) := by
  funext j
  obtain ⟨a, b, rfl⟩ : ∃ (a : Fin 256) (b : Fin 256), j = ix2 a b := ⟨j 0, j 1, eq_ix2 j⟩
  refine shapeCast_apply v hc (ix2 a b) (ix3 (0 : Fin 1) a b) ?_
  rw [Shape.rowMajor_val_three, Shape.rowMajor_val_two]
  show (0 * 256 + a.val) * 256 + b.val = a.val * 256 + b.val
  omega

/-- A [1, 256] slab cast to a vector of 256 entries reads, at a, the slab at (0, a). -/
theorem cast_row (v : (⟨2, ![1, 256]⟩ : Shape).Idx → α) (hc : (⟨2, ![1, 256]⟩ : Shape).ShapeCasts ⟨1, ![256]⟩) :
    shapeCast ⟨1, ![256]⟩ v hc = fun j => v (ix2 (0 : Fin 1) (j 0)) := by
  funext j
  obtain ⟨a, rfl⟩ : ∃ a : Fin 256, j = ix1 a := ⟨j 0, eq_ix1 j⟩
  refine shapeCast_apply v hc (ix1 a) (ix2 (0 : Fin 1) a) ?_
  rw [Shape.rowMajor_val_two, Shape.rowMajor_val_one]
  show 0 * 256 + a.val = a.val
  omega

/-- A column [R, 1] laid along the N columns of [R, N] by the host's broadcast reads, at (a, j), the column at row a. -/
theorem inDimCol_apply {R N : ℕ} (om : (⟨2, ![R, 1]⟩ : Shape).Idx → α)
    (h : (⟨2, ![R, 1]⟩ : Shape).BroadcastsInDim ⟨2, ![R, N]⟩ ![0, 1]) (a : Fin R) (j : Fin N) :
    broadcastInDim ⟨2, ![R, N]⟩ ![0, 1] h om (ix2 a j) = om (ix2 a (0 : Fin 1)) := by
  refine broadcastInDim_apply ![0, 1] h om (ix2 a j) (ix2 a (0 : Fin 1)) fun ax => ?_
  match ax with
  | ⟨0, _⟩ =>
    show a.val = if R = 1 then 0 else a.val
    split
    · have := a.isLt; omega
    · rfl
  | ⟨1, _⟩ =>
    show 0 = if (1 : ℕ) = 1 then 0 else j.val
    rw [if_pos rfl]

/-- The word of the number one. -/
theorem one_f32 : Ideal.ofBits .f32 0x3F800000#32 = 1 := by
  simp [Ideal.ofBits, Ideal.ieee, -EReal.coe_mul]; norm_num

/-! ## The kernel's spelling of each layer -/

/-- A matmul into the zero accumulator plus the bias cast to one row and broadcast down the rows is the dense layer. -/
theorem kernel_dense {R K N : ℕ} {φ₁ φ₂ : FTy}
    (w : DotDims.WF ⟨2, ![R, K]⟩ ⟨2, ![K, N]⟩ ⟨2, ![R, N]⟩ [1] [0] [0] [1] [] [])
    (prec : Option ContractPrecision)
    (x : FVec Ideal ⟨2, ![R, K]⟩ φ₁) (W : FVec Ideal ⟨2, ![K, N]⟩ φ₂) (b : FVec Ideal ⟨1, ![N]⟩ .f32)
    (h1 : (⟨1, ![N]⟩ : Shape).ShapeCasts ⟨2, ![1, N]⟩) (hb : (⟨2, ![1, N]⟩ : Shape).Broadcasts ⟨2, ![R, N]⟩) :
    addf (matmul (⟨[1], [0], [0], [1], [], [], w⟩ : DotDims ⟨2, ![R, K]⟩ ⟨2, ![K, N]⟩ ⟨2, ![R, N]⟩) prec x W
        (constant (F := Ideal) ⟨2, ![R, N]⟩ .f32 0x00000000#32))
      (broadcastTo ⟨2, ![R, N]⟩ (shapeCast ⟨2, ![1, N]⟩ b h1) hb) = dense x W b := by
  funext i
  obtain ⟨a, j, rfl⟩ : ∃ (a : Fin R) (j : Fin N), i = ix2 a j := ⟨i 0, i 1, eq_ix2 i⟩
  show (matmul (⟨[1], [0], [0], [1], [], [], w⟩ : DotDims ⟨2, ![R, K]⟩ ⟨2, ![K, N]⟩ ⟨2, ![R, N]⟩) prec x W
      (constant (F := Ideal) ⟨2, ![R, N]⟩ .f32 0x00000000#32) (ix2 a j) : EReal)
    + broadcastTo ⟨2, ![R, N]⟩ (shapeCast ⟨2, ![1, N]⟩ b h1) hb (ix2 a j) = _
  rw [Cert.BiasRow.castRows_apply b h1 hb a j]
  refine congrArg (· + b (ix1 j)) ?_
  refine (Ideal.matmul_constant_zero_apply _ prec x W (ix2 a j)).trans ?_
  exact Cert.DotRead.sum_contr_plain w x W a j

/-- The maximum with the zero splat is the positive part. -/
theorem kernel_relu {S : Shape} (z : FVec Ideal S .f32) :
    maximumf z (broadcast S (Scalar.ofBits (F := Ideal) .f32 0x00000000#32)) = relu z := by
  funext i
  show max (z i) (Ideal.ofBits .f32 0x00000000#32) = max (z i) 0
  rw [Ideal.ofBits_zero_f32]

/-- Ten plus ninety times the logistic, with splat constants, is `freq`. -/
theorem kernel_freq {R : ℕ} (raw : FVec Ideal ⟨2, ![R, 1]⟩ .f32) :
    addf (broadcast ⟨2, ![R, 1]⟩ (Scalar.ofBits (F := Ideal) .f32 0x41200000#32))
      (mulf (broadcast ⟨2, ![R, 1]⟩ (Scalar.ofBits (F := Ideal) .f32 0x42B40000#32)) (logistic raw)) = freq raw := by
  funext i
  rfl

/-- The sine of the frequency column, broadcast along the columns, times the layer's input. -/
theorem kernel_sine {R N : ℕ} (om : FVec Ideal ⟨2, ![R, 1]⟩ .f32) (z : FVec Ideal ⟨2, ![R, N]⟩ .f32)
    (hb : (⟨2, ![R, 1]⟩ : Shape).Broadcasts ⟨2, ![R, N]⟩) :
    sin (mulf (broadcastTo ⟨2, ![R, N]⟩ om hb) z) = sine om z := by
  funext i
  obtain ⟨a, j, rfl⟩ : ∃ (a : Fin R) (j : Fin N), i = ix2 a j := ⟨i 0, i 1, eq_ix2 i⟩
  show Ideal.sin (broadcastTo ⟨2, ![R, N]⟩ om hb (ix2 a j) * z (ix2 a j)) = Ideal.sin (om (ix2 a (0 : Fin 1)) * z (ix2 a j))
  rw [Cert.Keepdims.broadcastTo_a1_ab_apply om hb a j]

/-- A change to a narrower float format is the identity on the extended reals. -/
theorem truncf_ideal {S : Shape} {φ : FTy} (ψ : FTy) (x : FVec Ideal S φ) (h : ψ.bits < φ.bits) :
    truncf ψ x h = (x : S.Idx → EReal) := rfl

/-! ## The host's spelling of each layer -/

/-- A dot_general plus the bias broadcast into one row and then down the rows is the dense layer. -/
theorem host_dense {R K N : ℕ}
    (w : DotDims.WF ⟨2, ![R, K]⟩ ⟨2, ![K, N]⟩ ⟨2, ![R, N]⟩ [1] [0] [0] [1] [] [])
    (prec : Option ContractPrecision)
    (x : FVec Ideal ⟨2, ![R, K]⟩ .f32) (W : FVec Ideal ⟨2, ![K, N]⟩ .f32) (b : FVec Ideal ⟨1, ![N]⟩ .f32)
    (hd1 : (⟨1, ![N]⟩ : Shape).BroadcastsInDim ⟨2, ![1, N]⟩ ![1])
    (hd2 : (⟨2, ![1, N]⟩ : Shape).BroadcastsInDim ⟨2, ![R, N]⟩ ![0, 1]) :
    addf (Host.dotGeneral (⟨[1], [0], [0], [1], [], [], w⟩ : DotDims ⟨2, ![R, K]⟩ ⟨2, ![K, N]⟩ ⟨2, ![R, N]⟩) prec x W)
      (broadcastInDim ⟨2, ![R, N]⟩ ![0, 1] hd2 (broadcastInDim ⟨2, ![1, N]⟩ ![1] hd1 b)) = dense x W b := by
  funext i
  obtain ⟨a, j, rfl⟩ : ∃ (a : Fin R) (j : Fin N), i = ix2 a j := ⟨i 0, i 1, eq_ix2 i⟩
  show (Host.dotGeneral (⟨[1], [0], [0], [1], [], [], w⟩ : DotDims ⟨2, ![R, K]⟩ ⟨2, ![K, N]⟩ ⟨2, ![R, N]⟩) prec x W (ix2 a j) : EReal)
    + broadcastInDim ⟨2, ![R, N]⟩ ![0, 1] hd2 (broadcastInDim ⟨2, ![1, N]⟩ ![1] hd1 b) (ix2 a j) = _
  rw [Cert.BiasRow.inDimRows_apply b hd1 hd2 a j]
  refine congrArg (· + b (ix1 j)) ?_
  refine (Ideal.dotGeneral_apply _ prec _ x W (ix2 a j)).trans ?_
  exact Cert.DotRead.sum_contr_plain w x W a j

/-- The maximum with the broadcast zero scalar is the positive part. -/
theorem host_relu {S : Shape} (z : FVec Ideal S .f32) (h : (⟨0, ![]⟩ : Shape).BroadcastsInDim S ![]) :
    maximumf z (broadcastInDim S ![] h (constant (F := Ideal) ⟨0, ![]⟩ .f32 0x00000000#32)) = relu z := by
  funext i
  show max (z i) (broadcastInDim S ![] h (constant (F := Ideal) ⟨0, ![]⟩ .f32 0x00000000#32) i) = max (z i) 0
  rw [broadcastInDim_scalar_apply]
  show max (z i) (Ideal.ofBits .f32 0x00000000#32) = max (z i) 0
  rw [Ideal.ofBits_zero_f32]

/-- Ten plus ninety times one over one plus the exponential of the negated score: the logistic function spelt out,
    which is the logistic function on every extended real. -/
theorem host_freq {R : ℕ} (raw : FVec Ideal ⟨2, ![R, 1]⟩ .f32)
    (h : (⟨0, ![]⟩ : Shape).BroadcastsInDim ⟨2, ![R, 1]⟩ ![]) :
    addf (broadcastInDim ⟨2, ![R, 1]⟩ ![] h (constant (F := Ideal) ⟨0, ![]⟩ .f32 0x41200000#32))
      (mulf (broadcastInDim ⟨2, ![R, 1]⟩ ![] h (constant (F := Ideal) ⟨0, ![]⟩ .f32 0x42B40000#32))
        (Host.divf (broadcastInDim ⟨2, ![R, 1]⟩ ![] h (constant (F := Ideal) ⟨0, ![]⟩ .f32 0x3F800000#32))
          (addf (broadcastInDim ⟨2, ![R, 1]⟩ ![] h (constant (F := Ideal) ⟨0, ![]⟩ .f32 0x3F800000#32))
            (Host.exp (Host.negf raw))))) = freq raw := by
  funext i
  show broadcastInDim ⟨2, ![R, 1]⟩ ![] h (constant (F := Ideal) ⟨0, ![]⟩ .f32 0x41200000#32) i
      + broadcastInDim ⟨2, ![R, 1]⟩ ![] h (constant (F := Ideal) ⟨0, ![]⟩ .f32 0x42B40000#32) i
        * Ideal.div (broadcastInDim ⟨2, ![R, 1]⟩ ![] h (constant (F := Ideal) ⟨0, ![]⟩ .f32 0x3F800000#32) i)
            (broadcastInDim ⟨2, ![R, 1]⟩ ![] h (constant (F := Ideal) ⟨0, ![]⟩ .f32 0x3F800000#32) i + Ideal.exp (-(raw i)))
    = Ideal.ofBits .f32 0x41200000#32 + Ideal.ofBits .f32 0x42B40000#32 * Ideal.div 1 (1 + Ideal.exp (-(raw i)))
  simp only [broadcastInDim_scalar_apply]
  show Ideal.ofBits .f32 0x41200000#32 + Ideal.ofBits .f32 0x42B40000#32
      * Ideal.div (Ideal.ofBits .f32 0x3F800000#32) (Ideal.ofBits .f32 0x3F800000#32 + Ideal.exp (-(raw i))) = _
  rw [one_f32]

/-- The sine of the frequency column, laid along the columns by the host's broadcast, times the layer's input. -/
theorem host_sine {R N : ℕ} (om : FVec Ideal ⟨2, ![R, 1]⟩ .f32) (z : FVec Ideal ⟨2, ![R, N]⟩ .f32)
    (h : (⟨2, ![R, 1]⟩ : Shape).BroadcastsInDim ⟨2, ![R, N]⟩ ![0, 1]) :
    Host.sin (mulf (broadcastInDim ⟨2, ![R, N]⟩ ![0, 1] h om) z) = sine om z := by
  funext i
  obtain ⟨a, j, rfl⟩ : ∃ (a : Fin R) (j : Fin N), i = ix2 a j := ⟨i 0, i 1, eq_ix2 i⟩
  show Ideal.sin (broadcastInDim ⟨2, ![R, N]⟩ ![0, 1] h om (ix2 a j) * z (ix2 a j)) = Ideal.sin (om (ix2 a (0 : Fin 1)) * z (ix2 a j))
  rw [inDimCol_apply om h a j]

/-- Matrix n of the stack, the host's way: a unit-thick slice at offset n, cast to a matrix. -/
theorem host_matAt (wh : FVec Ideal ⟨3, ![4, 256, 256]⟩ .f32) (n : ℕ) (hn : n < 4)
    (hs : (⟨3, ![4, 256, 256]⟩ : Shape).Slices ![n, 0, 0] ⟨3, ![1, 256, 256]⟩)
    (hc : (⟨3, ![1, 256, 256]⟩ : Shape).ShapeCasts ⟨2, ![256, 256]⟩) :
    shapeCast ⟨2, ![256, 256]⟩ (extractStridedSlice ⟨3, ![1, 256, 256]⟩ ![n, 0, 0] wh hs) hc = matAt wh n hn := by
  rw [cast_mat]
  funext j
  refine extractStridedSlice_apply ![n, 0, 0] wh hs (ix3 (0 : Fin 1) (j 0) (j 1)) (ix3 (⟨n, hn⟩ : Fin 4) (j 0) (j 1)) fun a => ?_
  match a with
  | ⟨0, _⟩ => show n = n + 0; rfl
  | ⟨1, _⟩ => show (j 0).val = 0 + (j 0).val; omega
  | ⟨2, _⟩ => show (j 1).val = 0 + (j 1).val; omega

/-- Row n of the bias matrix, the host's way. -/
theorem host_rowAt (bh : FVec Ideal ⟨2, ![4, 256]⟩ .f32) (n : ℕ) (hn : n < 4)
    (hs : (⟨2, ![4, 256]⟩ : Shape).Slices ![n, 0] ⟨2, ![1, 256]⟩)
    (hc : (⟨2, ![1, 256]⟩ : Shape).ShapeCasts ⟨1, ![256]⟩) :
    shapeCast ⟨1, ![256]⟩ (extractStridedSlice ⟨2, ![1, 256]⟩ ![n, 0] bh hs) hc = rowAt bh n hn := by
  rw [cast_row]
  funext j
  refine extractStridedSlice_apply ![n, 0] bh hs (ix2 (0 : Fin 1) (j 0)) (ix2 (⟨n, hn⟩ : Fin 4) (j 0)) fun a => ?_
  match a with
  | ⟨0, _⟩ => show n = n + 0; rfl
  | ⟨1, _⟩ => show (j 0).val = 0 + (j 0).val; omega

end Cert.Siren

end
-- ==== Proof.KernelValue.lean ====
/- The kernel's result array is the network on all 524288 rows. At grid point t the body loads rows
   2048·t … 2048·t + 2047 of the coordinates and every weight array whole, and what it stores is the network of
   that block of rows (its matmuls, bias broadcasts, logistic, sines are the layers in the kernel's spelling; the
   hidden layers' matrices and bias rows are unit-thick slabs of the stacked weights). The network is local to the
   row, so the block the point writes back is rows 2048·t … of the network of the whole array; the 256 blocks tile
   the result. -/
import proofs.«145417_j82849919139907_1_alg».proof.Proof.Gen.KernelIdeal.Value
import proofs.«145417_j82849919139907_1_alg».proof.Proof.Siren

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx
open Idealize.ShloMosaic.Pipeline (Dat)
open Cert.Siren

theorem hz1 : (![0] : Fin 1 → Nat) = fun _ => 0 := funext fun a => by fin_cases a <;> rfl
theorem hz2 : (![0, 0] : Fin 2 → Nat) = fun _ => 0 := funext fun a => by fin_cases a <;> rfl

/-! ## The hidden layers' weights: unit-thick slabs of the stacks -/

/-- The slab of the matrix stack at offset n, cast to a matrix, is matrix n. -/
theorem ld_mat (x7 : Vec Ideal S4x256x256 .f32) (n : ℕ) (hn : n < 4)
    (inb : ∀ a, (![n, 0, 0] : Fin 3 → Nat) a + S1x256x256.size a ≤ S4x256x256.size a)
    (hc : S1x256x256.ShapeCasts S256x256) :
    shapeCast (s := S1x256x256) S256x256 (View.ld x7 (Rect.unit (s := S4x256x256) ![n, 0, 0] S1x256x256.size inb))
      hc = matAt x7 n hn := by
  rw [cast_mat]
  funext j
  show x7 ((Rect.unit (s := S4x256x256) ![n, 0, 0] S1x256x256.size inb).toLoadRect.idx (ix3 (0 : Fin 1) (j 0) (j 1)))
    = x7 (ix3 (⟨n, hn⟩ : Fin 4) (j 0) (j 1))
  congr 1
  funext a
  apply Fin.ext
  match a with
  | ⟨0, _⟩ => show n + 1 * 0 = n; omega
  | ⟨1, _⟩ => show 0 + 1 * (j 0).val = (j 0).val; omega
  | ⟨2, _⟩ => show 0 + 1 * (j 1).val = (j 1).val; omega

/-- The slab of the bias matrix at row offset n, cast to a vector, is row n. -/
theorem ld_row (x8 : Vec Ideal S4x256 .f32) (n : ℕ) (hn : n < 4)
    (inb : ∀ a, (![n, 0] : Fin 2 → Nat) a + S1x256.size a ≤ S4x256.size a)
    (hc : S1x256.ShapeCasts S256) :
    shapeCast (s := S1x256) S256 (View.ld x8 (Rect.unit (s := S4x256) ![n, 0] S1x256.size inb))
      hc = rowAt x8 n hn := by
  rw [cast_row]
  funext j
  show x8 ((Rect.unit (s := S4x256) ![n, 0] S1x256.size inb).toLoadRect.idx (ix2 (0 : Fin 1) (j 0)))
    = x8 (ix2 (⟨n, hn⟩ : Fin 4) (j 0))
  congr 1
  funext a
  apply Fin.ext
  match a with
  | ⟨0, _⟩ => show n + 1 * 0 = n; omega
  | ⟨1, _⟩ => show 0 + 1 * (j 0).val = (j 0).val; omega

theorem ld_mat0 (x7 : Vec Ideal S4x256x256 .f32) (hc : S1x256x256.ShapeCasts S256x256) :
    shapeCast (s := S1x256x256) S256x256 (View.ld x7 r0_7) hc = matAt x7 0 (by decide) := ld_mat x7 0 (by decide) _ hc
theorem ld_mat1 (x7 : Vec Ideal S4x256x256 .f32) (hc : S1x256x256.ShapeCasts S256x256) :
    shapeCast (s := S1x256x256) S256x256 (View.ld x7 r0_9) hc = matAt x7 1 (by decide) := ld_mat x7 1 (by decide) _ hc
theorem ld_mat2 (x7 : Vec Ideal S4x256x256 .f32) (hc : S1x256x256.ShapeCasts S256x256) :
    shapeCast (s := S1x256x256) S256x256 (View.ld x7 r0_11) hc = matAt x7 2 (by decide) := ld_mat x7 2 (by decide) _ hc
theorem ld_mat3 (x7 : Vec Ideal S4x256x256 .f32) (hc : S1x256x256.ShapeCasts S256x256) :
    shapeCast (s := S1x256x256) S256x256 (View.ld x7 r0_13) hc = matAt x7 3 (by decide) := ld_mat x7 3 (by decide) _ hc
theorem ld_row0 (x8 : Vec Ideal S4x256 .f32) (hc : S1x256.ShapeCasts S256) :
    shapeCast (s := S1x256) S256 (View.ld x8 r0_8) hc = rowAt x8 0 (by decide) := ld_row x8 0 (by decide) _ hc
theorem ld_row1 (x8 : Vec Ideal S4x256 .f32) (hc : S1x256.ShapeCasts S256) :
    shapeCast (s := S1x256) S256 (View.ld x8 r0_10) hc = rowAt x8 1 (by decide) := ld_row x8 1 (by decide) _ hc
theorem ld_row2 (x8 : Vec Ideal S4x256 .f32) (hc : S1x256.ShapeCasts S256) :
    shapeCast (s := S1x256) S256 (View.ld x8 r0_12) hc = rowAt x8 2 (by decide) := ld_row x8 2 (by decide) _ hc
theorem ld_row3 (x8 : Vec Ideal S4x256 .f32) (hc : S1x256.ShapeCasts S256) :
    shapeCast (s := S1x256) S256 (View.ld x8 r0_14) hc = rowAt x8 3 (by decide) := ld_row x8 3 (by decide) _ hc

/-! ## What the body stores is the network of the blocks it loads -/

theorem out_eq (x0 : Vec Ideal S2048x4 .f32) (x1 : Vec Ideal S4x64 .f32) (x2 : Vec Ideal S64 .f32)
    (x3 : Vec Ideal S64x1 .f32) (x4 : Vec Ideal S1 .f32) (x5 : Vec Ideal S4x256 .f32) (x6 : Vec Ideal S256 .f32)
    (x7 : Vec Ideal S4x256x256 .f32) (x8 : Vec Ideal S4x256 .f32) (x9 : Vec Ideal S256x1 .f32) (x10 : Vec Ideal S1 .f32) :
    out0_11 (F := Ideal) x0 x1 x2 x3 x4 x5 x6 x7 x8 x9 x10 = net (R := 2048) x0 x1 x2 x3 x4 x5 x6 x7 x8 x9 x10 := by
  unfold out0_11
  rw [View.canon_unit_zero hz2]
  simp only [View.ld_unit_zero (S := S2048x4) hz2, View.ld_unit_zero (S := S4x64) hz2, View.ld_unit_zero (S := S64) hz1,
    View.ld_unit_zero (S := S64x1) hz2, View.ld_unit_zero (S := S1) hz1, View.ld_unit_zero (S := S4x256) hz2,
    View.ld_unit_zero (S := S256) hz1, View.ld_unit_zero (S := S256x1) hz2]
  unfold k0_pay1 k0_pay7 k0_pay3 k0_pay2 k0_pay4 k0_pay5 k0_pay6 Cert.Siren.net Cert.Siren.hidden Cert.Siren.omegaOf
  simp only [dot_S2048x4_S4x64_S2048x64_1_0_0_1_n_n, dot_S2048x64_S64x1_S2048x1_1_0_0_1_n_n,
    dot_S2048x4_S4x256_S2048x256_1_0_0_1_n_n, dot_S2048x256_S256x256_S2048x256_1_0_0_1_n_n,
    dot_S2048x256_S256x1_S2048x1_1_0_0_1_n_n, truncf_ideal]
  rw [ld_mat0, ld_mat1, ld_mat2, ld_mat3, ld_row0, ld_row1, ld_row2, ld_row3]
  repeat rw [kernel_dense]
  rw [kernel_relu, kernel_freq]
  repeat rw [kernel_sine]

/-! ## The blocks a grid point loads -/

variable (m : (ℓ : Loc nD τ sig) → Buf (Elt Ideal) ℓ) (ρ : Dev nD → PrngReg)

/-- The coordinates' block index is (t, 0) and so is the result's; every weight window stays at block 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx1 : ∀ (t : Fin cfg0.N) (a : Fin 2), win0_1.index t a = 0 := (by decide +kernel : ∀ (t : Fin grid0.N) (a : Fin 2), win0_1.index t a = 0)
theorem idx2 : ∀ (t : Fin cfg0.N) (a : Fin 1), win0_2.index t a = 0 := (by decide +kernel : ∀ (t : Fin grid0.N) (a : Fin 1), win0_2.index t a = 0)
theorem idx3 : ∀ (t : Fin cfg0.N) (a : Fin 2), win0_3.index t a = 0 := (by decide +kernel : ∀ (t : Fin grid0.N) (a : Fin 2), win0_3.index t a = 0)
theorem idx4 : ∀ (t : Fin cfg0.N) (a : Fin 1), win0_4.index t a = 0 := (by decide +kernel : ∀ (t : Fin grid0.N) (a : Fin 1), win0_4.index t a = 0)
theorem idx5 : ∀ (t : Fin cfg0.N) (a : Fin 2), win0_5.index t a = 0 := (by decide +kernel : ∀ (t : Fin grid0.N) (a : Fin 2), win0_5.index t a = 0)
theorem idx6 : ∀ (t : Fin cfg0.N) (a : Fin 1), win0_6.index t a = 0 := (by decide +kernel : ∀ (t : Fin grid0.N) (a : Fin 1), win0_6.index t a = 0)
theorem idx7 : ∀ (t : Fin cfg0.N) (a : Fin 3), win0_7.index t a = 0 := (by decide +kernel : ∀ (t : Fin grid0.N) (a : Fin 3), win0_7.index t a = 0)
theorem idx8 : ∀ (t : Fin cfg0.N) (a : Fin 2), win0_8.index t a = 0 := (by decide +kernel : ∀ (t : Fin grid0.N) (a : Fin 2), win0_8.index t a = 0)
theorem idx9 : ∀ (t : Fin cfg0.N) (a : Fin 2), win0_9.index t a = 0 := (by decide +kernel : ∀ (t : Fin grid0.N) (a : Fin 2), win0_9.index t a = 0)
theorem idx10 : ∀ (t : Fin cfg0.N) (a : Fin 1), win0_10.index t a = 0 := (by decide +kernel : ∀ (t : Fin grid0.N) (a : Fin 1), win0_10.index t a = 0)

/-- Each weight window's block, at every point, is its whole array: the block sits at offset zero with the array's
    own sizes. -/
theorem wblk1 (c : Dev nD) (t : Fin cfg0.N) : (iblk m c 1 t : Vec Ideal S4x64 .f32) = m ((c : Thread nD τ).loc main_arg1) := by
  have hz' : (fun a => win0_1.index t a * main_arg1.ty.shape.size a) = fun _ => 0 := funext fun a => by rw [idx1 t a, Nat.zero_mul]
  exact Memref.read_access_unit_zero (Elt Ideal) main_arg1 hz' (fun a => by rw [congrFun hz' a]; simp) _
theorem wblk2 (c : Dev nD) (t : Fin cfg0.N) : (iblk m c 2 t : Vec Ideal S64 .f32) = m ((c : Thread nD τ).loc main_arg2) := by
  have hz' : (fun a => win0_2.index t a * main_arg2.ty.shape.size a) = fun _ => 0 := funext fun a => by rw [idx2 t a, Nat.zero_mul]
  exact Memref.read_access_unit_zero (Elt Ideal) main_arg2 hz' (fun a => by rw [congrFun hz' a]; simp) _
theorem wblk3 (c : Dev nD) (t : Fin cfg0.N) : (iblk m c 3 t : Vec Ideal S64x1 .f32) = m ((c : Thread nD τ).loc main_arg3) := by
  have hz' : (fun a => win0_3.index t a * main_arg3.ty.shape.size a) = fun _ => 0 := funext fun a => by rw [idx3 t a, Nat.zero_mul]
  exact Memref.read_access_unit_zero (Elt Ideal) main_arg3 hz' (fun a => by rw [congrFun hz' a]; simp) _
theorem wblk4 (c : Dev nD) (t : Fin cfg0.N) : (iblk m c 4 t : Vec Ideal S1 .f32) = m ((c : Thread nD τ).loc main_arg4) := by
  have hz' : (fun a => win0_4.index t a * main_arg4.ty.shape.size a) = fun _ => 0 := funext fun a => by rw [idx4 t a, Nat.zero_mul]
  exact Memref.read_access_unit_zero (Elt Ideal) main_arg4 hz' (fun a => by rw [congrFun hz' a]; simp) _
theorem wblk5 (c : Dev nD) (t : Fin cfg0.N) : (iblk m c 5 t : Vec Ideal S4x256 .f32) = m ((c : Thread nD τ).loc main_arg5) := by
  have hz' : (fun a => win0_5.index t a * main_arg5.ty.shape.size a) = fun _ => 0 := funext fun a => by rw [idx5 t a, Nat.zero_mul]
  exact Memref.read_access_unit_zero (Elt Ideal) main_arg5 hz' (fun a => by rw [congrFun hz' a]; simp) _
theorem wblk6 (c : Dev nD) (t : Fin cfg0.N) : (iblk m c 6 t : Vec Ideal S256 .f32) = m ((c : Thread nD τ).loc main_arg6) := by
  have hz' : (fun a => win0_6.index t a * main_arg6.ty.shape.size a) = fun _ => 0 := funext fun a => by rw [idx6 t a, Nat.zero_mul]
  exact Memref.read_access_unit_zero (Elt Ideal) main_arg6 hz' (fun a => by rw [congrFun hz' a]; simp) _
theorem wblk7 (c : Dev nD) (t : Fin cfg0.N) : (iblk m c 7 t : Vec Ideal S4x256x256 .f32) = m ((c : Thread nD τ).loc main_arg7) := by
  have hz' : (fun a => win0_7.index t a * main_arg7.ty.shape.size a) = fun _ => 0 := funext fun a => by rw [idx7 t a, Nat.zero_mul]
  exact Memref.read_access_unit_zero (Elt Ideal) main_arg7 hz' (fun a => by rw [congrFun hz' a]; simp) _
theorem wblk8 (c : Dev nD) (t : Fin cfg0.N) : (iblk m c 8 t : Vec Ideal S4x256 .f32) = m ((c : Thread nD τ).loc main_arg8) := by
  have hz' : (fun a => win0_8.index t a * main_arg8.ty.shape.size a) = fun _ => 0 := funext fun a => by rw [idx8 t a, Nat.zero_mul]
  exact Memref.read_access_unit_zero (Elt Ideal) main_arg8 hz' (fun a => by rw [congrFun hz' a]; simp) _
theorem wblk9 (c : Dev nD) (t : Fin cfg0.N) : (iblk m c 9 t : Vec Ideal S256x1 .f32) = m ((c : Thread nD τ).loc main_arg9) := by
  have hz' : (fun a => win0_9.index t a * main_arg9.ty.shape.size a) = fun _ => 0 := funext fun a => by rw [idx9 t a, Nat.zero_mul]
  exact Memref.read_access_unit_zero (Elt Ideal) main_arg9 hz' (fun a => by rw [congrFun hz' a]; simp) _
theorem wblk10 (c : Dev nD) (t : Fin cfg0.N) : (iblk m c 10 t : Vec Ideal S1 .f32) = m ((c : Thread nD τ).loc main_arg10) := by
  have hz' : (fun a => win0_10.index t a * main_arg10.ty.shape.size a) = fun _ => 0 := funext fun a => by rw [idx10 t a, Nat.zero_mul]
  exact Memref.read_access_unit_zero (Elt Ideal) main_arg10 hz' (fun a => by rw [congrFun hz' a]; simp) _

/-! ## What a point writes back, and the array the 256 blocks make -/

/-- The network of the launched arrays on all 524288 rows. -/
abbrev G (c : Dev nD) : S524288x1.Idx → EReal :=
  net (R := 524288) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem lt_N (t : Fin cfg0.N) : t.val < 256 := lt_of_lt_of_eq t.isLt N_0

/-- Point t writes back rows 2048·t … 2048·t + 2047 of the network of the whole arrays: its coordinate block is
    those rows, its weight blocks are the weight arrays, and the network is local to the row. -/
theorem flushed_eq (c : Dev nD) (t : Fin cfg0.N) :
    (dats m 0 c).flushed 11 t = ((cfg0.win 11).blk t).view.read (Elt Ideal) (G m c) := by
  rw [Cert.KernelIdeal.Value.flushed11, out_eq, wblk1, wblk2, wblk3, wblk4, wblk5, wblk6, wblk7, wblk8, wblk9, wblk10]
  funext y
  have ht := lt_N t
  have hy0 : (y 0).val < 2048 := (y 0).isLt
  obtain ⟨e0, e1⟩ := idx0 t
  obtain ⟨e2, e3⟩ := idx11 t
  have hE : (((cfg0.win 11).blk t).view.emb y : S524288x1.Idx)
      = ix2 (⟨t.val * 2048 + (y 0).val, by omega⟩ : Fin 524288) (y 1) := by
    funext a
    apply Fin.ext
    match a with
    | ⟨0, _⟩ => show win0_11.index t (0 : Fin 2) * 2048 + 1 * (y 0).val = t.val * 2048 + (y 0).val; rw [e2]; omega
    | ⟨1, _⟩ => show win0_11.index t (1 : Fin 2) * 1 + 1 * (y 1).val = (y 1).val; rw [e3]; omega
  have hrow : SameRow (y 0) (⟨t.val * 2048 + (y 0).val, by omega⟩ : Fin 524288)
      (iblk m c 0 t : Vec Ideal S2048x4 .f32) (m ((c : Thread nD τ).loc main_arg0)) := fun k => by
    show V m c main_arg0 (((cfg0.win 0).blk t).view.emb (ix2 (y 0) k))
      = V m c main_arg0 (ix2 (⟨t.val * 2048 + (y 0).val, by omega⟩ : Fin 524288) k)
    congr 1
    funext a
    apply Fin.ext
    match a with
    | ⟨0, _⟩ => show win0_0.index t (0 : Fin 2) * 2048 + 1 * (y 0).val = t.val * 2048 + (y 0).val; rw [e0]; omega
    | ⟨1, _⟩ => show win0_0.index t (1 : Fin 2) * 4 + 1 * k.val = k.val; rw [e1]; omega
  show net (R := 2048) (iblk m c 0 t : Vec Ideal S2048x4 .f32) _ _ _ _ _ _ _ _ _ _ (ix2 (y 0) (y 1))
    = G m c (((cfg0.win 11).blk t).view.emb y)
  rw [hE]
  exact net_rows hrow _ _ _ _ _ _ _ _ _ _ (y 1)

/-- An index of the result is in point t's block iff each coordinate is in the block's range on its axis. -/
theorem mem_blk (t : Fin cfg0.N) (i : S524288x1.Idx) :
    i ∈ ((cfg0.win 11).blk t).view.set ↔ ∀ a : Fin 2, win0_11.index t a * S2048x1.size a ≤ (i a).val
      ∧ (i a).val < win0_11.index t a * S2048x1.size a + S2048x1.size a := by
  show i ∈ ((View.whole main_v0).slice (win0_11.rect t)).set ↔ _
  rw [View.set_slice_whole, Rect.mem_set_unit]
  exact Iff.rfl

/-- Row r of the result lies in the block of point r / 2048. -/
theorem cover (i : S524288x1.Idx) : ∃ t : Fin cfg0.N, (cfg0.win 11).flush t = true ∧ i ∈ ((cfg0.win 11).blk t).view.set := by
  have hi0 : (i 0).val < 524288 := (i 0).isLt
  have hi1 : (i 1).val < 1 := (i 1).isLt
  have hq : (i 0).val / 2048 < cfg0.N := by rw [show cfg0.N = 256 from N_0]; omega
  obtain ⟨e2, e3⟩ := idx11 ⟨(i 0).val / 2048, hq⟩
  refine ⟨⟨(i 0).val / 2048, hq⟩, flush0_11 _, ?_⟩
  rw [mem_blk]
  intro a
  match a with
  | ⟨0, _⟩ =>
    show win0_11.index ⟨(i 0).val / 2048, hq⟩ (0 : Fin 2) * 2048 ≤ (i 0).val
      ∧ (i 0).val < win0_11.index ⟨(i 0).val / 2048, hq⟩ (0 : Fin 2) * 2048 + 2048
    rw [e2]
    show (i 0).val / 2048 * 2048 ≤ (i 0).val ∧ (i 0).val < (i 0).val / 2048 * 2048 + 2048
    omega
  | ⟨1, _⟩ =>
    show win0_11.index ⟨(i 0).val / 2048, hq⟩ (1 : Fin 2) * 1 ≤ (i 1).val
      ∧ (i 1).val < win0_11.index ⟨(i 0).val / 2048, hq⟩ (1 : Fin 2) * 1 + 1
    rw [e3]
    omega

/-- After the run the result array is the network of the launched arrays. -/
theorem final (c : Dev nD) : (dats m 0 c).arrAt 11 cfg0.N = G m c :=
  (dats m 0 c).arrAt_eq_of_cover 11 (G m c) (fun t _ => flushed_eq m c t) cover

/-- The kernel's run with its result named: the network of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Net

end
-- ==== Proof.RefValue.lean ====
/- The reference program's result is the network on all 524288 rows: its operations, read from the inside out, are
   the layers of the specification in the host's spelling (a dot_general and a bias broadcast in two steps for a
   dense layer, the logistic function spelt as one over one plus the exponential of the negated score, a slice and
   a reshape for each hidden layer's matrix and bias row). -/
import proofs.«145417_j82849919139907_1_alg».proof.Proof.Gen.ReferenceIdeal.Run
import proofs.«145417_j82849919139907_1_alg».proof.Proof.Siren

set_option maxRecDepth 16384

noncomputable section

namespace Cert.ReferenceIdeal.Net

open Cert.ReferenceIdeal Cert.ReferenceIdeal.Gen Idealize.ShloMosaic Idealize.ShloMosaic.TcCoe Idealize.SL.Sem
open Cert.ReferenceIdeal.Facts₀ Cert.ReferenceIdeal.Facts
open Cert.Siren

/-- The reference's result array is the network of its eleven argument arrays. -/
theorem result_eq (m : (ℓ : Loc nD τ sig) → Buf (Elt Ideal) ℓ) (c : Dev nD) :
    Cert.ReferenceIdeal.Value.res_main_v73 (F := Ideal) m c
      = net (R := 524288) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v73 Cert.Siren.net Cert.Siren.hidden Cert.Siren.omegaOf
  simp only [dot_S524288x4_S4x64_S524288x64_1_0_0_1_n_n, dot_S524288x64_S64x1_S524288x1_1_0_0_1_n_n,
    dot_S524288x4_S4x256_S524288x256_1_0_0_1_n_n, dot_S524288x256_S256x256_S524288x256_1_0_0_1_n_n,
    dot_S524288x256_S256x1_S524288x1_1_0_0_1_n_n]
  rw [host_matAt _ 0 (by decide), host_matAt _ 1 (by decide), host_matAt _ 2 (by decide), host_matAt _ 3 (by decide),
    host_rowAt _ 0 (by decide), host_rowAt _ 1 (by decide), host_rowAt _ 2 (by decide), host_rowAt _ 3 (by decide)]
  repeat rw [host_dense]
  rw [host_relu, host_freq]
  repeat rw [host_sine]

end Cert.ReferenceIdeal.Net

end
-- ==== Proof.lean ====
/- A sinusoidal network with a per-row predicted frequency, tiled over blocks of 2048 rows, against the same
   network written over all 524288 rows at once.

   Both programs compute, for each row c of the coordinates,
     h = max(c·ow1 + ob1, 0),  omega = 10 + 90·logistic(h·ow2 + ob2),
     x0 = sin(omega·(c·w0 + b0)),  x(n+1) = sin(omega·(x(n)·wh[n] + bh[n])) for n = 0..3,  out = x4·wf + bf.
   On the extended reals a change of float format is the identity, a matmul into a zero accumulator and a
   dot_general are the same contraction sum, and the logistic function IS one over one plus the exponential of the
   negated argument, at the infinities too; so the two programs apply the same operations in the same order and no
   algebraic law, hence no finiteness of the inputs, is needed. What is left is layout: each layer depends on the
   row alone (Siren.lean), so the block a grid point writes is a block of rows of the network of the whole arrays
   (KernelValue.lean), and the reference's operations are the same layers in the host's spelling (RefValue.lean). -/
import proofs.«145417_j82849919139907_1_alg».proof.Defs
import proofs.«145417_j82849919139907_1_alg».proof.Proof.Gen.Kernel
import proofs.«145417_j82849919139907_1_alg».proof.Proof.Gen.Kernel.Skeleton
import proofs.«145417_j82849919139907_1_alg».proof.Proof.Gen.Kernel.Launch
import proofs.«145417_j82849919139907_1_alg».proof.Proof.Gen.Kernel.Points
import proofs.«145417_j82849919139907_1_alg».proof.Proof.Gen.Kernel.Frame
import proofs.«145417_j82849919139907_1_alg».proof.Proof.Gen.KernelIdeal
import proofs.«145417_j82849919139907_1_alg».proof.Proof.Gen.KernelIdeal.Skeleton
import proofs.«145417_j82849919139907_1_alg».proof.Proof.Gen.KernelIdeal.Launch
import proofs.«145417_j82849919139907_1_alg».proof.Proof.Gen.KernelIdeal.Points
import proofs.«145417_j82849919139907_1_alg».proof.Proof.Gen.KernelIdeal.Frame
import proofs.«145417_j82849919139907_1_alg».proof.Proof.Gen.ReferenceIdeal
import proofs.«145417_j82849919139907_1_alg».proof.Proof.Gen.Pre_finite_inputs
import proofs.«145417_j82849919139907_1_alg».proof.Proof.KernelValue
import proofs.«145417_j82849919139907_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the eleven arguments, both programs end with the network of those arguments
    in their result array. -/
theorem algebraic : Cert.algebraic_KernelIdeal_ReferenceIdeal := by
  intro m ρ m' ρ' _ hagree
  refine ⟨fun c => Cert.KernelIdeal.Net.G m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Net.result_eq, a0, a1, a2, a3, a4, a5, a6, a7, a8, a9, a10]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
